-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_arg10 : FVec F S128x64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  main_v48

def fn_part1 {F : FTy → Type} [FloatOps F] (main_arg5 : FVec F S128x64 .f32) (main_arg6 : FVec F S64 .f32) (main_arg7 : FVec F S128x64 .f32) (main_arg8 : FVec F S128x64 .f32) (main_arg9 : FVec F S64 .f32) (main_arg10 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) (main_arg8 : FVec F S128x64 .f32) (main_arg9 : FVec F S64 .f32) (main_arg10 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S1x128 : Shape := ⟨2, ![1, 128]⟩
abbrev S50000x64 : Shape := ⟨2, ![50000, 64]⟩
abbrev S5000x64 : Shape := ⟨2, ![5000, 64]⟩
abbrev S1x64 : Shape := ⟨2, ![1, 64]⟩

abbrev nBuf : Space → Nat
  | .hbm => 61
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S50000x64, .f32⟩
  | .hbm, ⟨60, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S64, .f32⟩
  | .local _ .vmem, ⟨15, _⟩ => ⟨S128x64, .f32⟩
  | .local _ .vmem, ⟨16, _⟩ => ⟨S128x64, .f32⟩
  | .local _ .vmem, ⟨17, _⟩ => ⟨S64, .f32⟩
  | .local _ .vmem, ⟨18, _⟩ => ⟨S128x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38_0 : Ref sig .tc := ⟨.hbm, 59, rfl⟩
abbrev main_v38_1 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x64.size a ≤ S128x64.size a
  hwx1_7 : ∀ i : grid1.Coords, EltTy.bits .f32 = 32 ∨ (Rect.block (s := S128x64) S128x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S50000x64.size a
  hwx1_8 : ∀ i : grid1.Coords, EltTy.bits .f32 = 32 ∨ (Rect.block (s := S50000x64) S5000x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S50000x64.size a
  hwx1_9 : ∀ i : grid1.Coords, EltTy.bits .f32 = 32 ∨ (Rect.block (s := S50000x64) S5000x64.size (cc1_transform_9 i) (hinb1_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S128x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v38_0) S5000x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v38_1) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S50000x64, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S_, .f32⟩
  | .hbm, ⟨94, _⟩ => ⟨S800000, .f32⟩
  | .hbm, ⟨95, _⟩ => ⟨S_, .f32⟩
  | .hbm, ⟨96, _⟩ => ⟨S50000, .f32⟩
  | .hbm, ⟨97, _⟩ => ⟨S800000x1, .i32⟩
  | .hbm, ⟨98, _⟩ => ⟨S50000, .f32⟩
  | .hbm, ⟨99, _⟩ => ⟨S_, .f32⟩
  | .hbm, ⟨100, _⟩ => ⟨S50000, .f32⟩
  | .hbm, ⟨101, _⟩ => ⟨S50000, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S50000x64, .f32⟩
  | .hbm, ⟨106, _⟩ => ⟨S1x64, .f32⟩
  | .hbm, ⟨107, _⟩ => ⟨S50000x64, .f32⟩
  | .hbm, ⟨108, _⟩ => ⟨S50000x64, .f32⟩
  | .hbm, ⟨109, _⟩ => ⟨S50000x64, .f32⟩
  | .hbm, ⟨110, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelHost.lean ====
/-
  The kernel program's host stretches, read as values.

  Before the first pallas_call the program computes, from the edge list, the source and destination rows, the
  reciprocal of each node's neighbour count clamped below by one, and the neighbour mean of the node features: the
  aggregated sum times that reciprocal.  Between the two pallas_calls it computes the same mean of the hidden features
  the first call left.  Each is one function of the edge list and of the array averaged; gathers and scatter-adds stay
  unopened.
-/
import proofs.«147813_j7421703487977_1_alg».proof.Proof.Gen.KernelIdeal.Frame
import Idealize.ShloMosaic.Lib.StableHlo.Run
import Idealize.ShloMosaic.PureOps.Ideal

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo

/-- The edge list, the node-feature arrays and the per-node columns, by their contents types. -/
abbrev Edges := IVec S2x800000 32
abbrev Feat := FVec Ideal S50000x128 .f32

/-- Row 0 of the edge list: each edge's source node. -/
def srcRow (ei : Edges) : IVec S800000 32 :=
  shapeCast S800000 (extractStridedSlice S1x800000 ![0, 0] ei slices_S2x800000_S1x800000_0_0) shapeCasts_S1x800000_S800000

/-- Row 1 of the edge list: each edge's destination node. -/
def dstRow (ei : Edges) : IVec S800000 32 :=
  shapeCast S800000 (extractStridedSlice S1x800000 ![1, 0] ei slices_S2x800000_S1x800000_1_0) shapeCasts_S1x800000_S800000

/-- The destinations as a column of scatter indices. -/
def dstIdx (ei : Edges) : IVec S800000x1 32 :=
  broadcastInDim S800000x1 ![0] bcast_S800000_S800000x1_0 (dstRow ei)

/-- The sources as a column of gather indices, a negative one counted from the end. -/
def srcIdx (ei : Edges) : IVec S800000x1 32 :=
  broadcastInDim S800000x1 ![0] bcast_S800000_S800000x1_0
    (select (cmpi .slt (srcRow ei) (broadcastInDim S800000 ![] bcast_S_S800000 (constantI S_ 32 0#32)))
      (addi (srcRow ei) (broadcastInDim S800000 ![] bcast_S_S800000 (constantI S_ 32 50000#32)))
      (srcRow ei))

/-- Each node's raw neighbour count: the scatter-add of ones by destination. -/
def rawCount (ei : Edges) : FVec Ideal S50000 .f32 :=
  Host.scatterAdd (F := Ideal) scatter_S50000_S800000x1_S800000_n_0_0_1
    (broadcastInDim S50000 ![] bcast_S_S50000 (constant (F := Ideal) S_ .f32 0x00000000#32)) (dstIdx ei)
    (broadcastInDim S800000 ![] bcast_S_S800000 (constant (F := Ideal) S_ .f32 0x3F800000#32))

/-- The f32 one, spread over the nodes. -/
def ones : FVec Ideal S50000 .f32 :=
  broadcastInDim S50000 ![] bcast_S_S50000 (constant (F := Ideal) S_ .f32 0x3F800000#32)

/-- Each node's neighbour count, clamped below by one. -/
def clampedCount (ei : Edges) : FVec Ideal S50000 .f32 :=
  maximumf (rawCount ei) ones

/-- The reciprocal of the clamped count, as a column. -/
def recip (ei : Edges) : FVec Ideal S50000x1 .f32 :=
  broadcastInDim S50000x1 ![0] bcast_S50000_S50000x1_0
    (Host.divf (F := Ideal) ones (clampedCount ei))

/-- The sum of the rows of `X` over each node's incoming edges. -/
def aggregate (ei : Edges) (X : Feat) : Feat :=
  Host.scatterAdd (F := Ideal) scatter_S50000x128_S800000x1_S800000x128_1_0_0_1
    (broadcastInDim S50000x128 ![] bcast_S_S50000x128 (constant (F := Ideal) S_ .f32 0x00000000#32)) (dstIdx ei)
    (Host.gather gather_S50000x128_S800000x1_S800000x128_1_0_n_n_0_1_1128 X (srcIdx ei))

/-- The neighbour mean as this program computes it: the aggregated sum TIMES the reciprocal of the clamped count. -/
def mean (ei : Edges) (X : Feat) : Feat :=
  mulf (aggregate ei X) (broadcastInDim S50000x128 ![0, 1] bcast_S50000x1_S50000x128_0_1 (recip ei))

variable (m : (ℓ : Loc nD τ sig) → Buf (Elt Ideal) ℓ) (ρ : Dev nD → PrngReg)

/-! ## What the first pallas_call finds -/

theorem entry0_src (c : Dev nD) : W1 m ρ c (Proc.devRef .tc main_v1) = srcRow (m ((c.tc : Thread nD τ).loc main_arg1)) := by
  show StableHlo.after hostOps0 (W0 m ρ c) (Proc.devRef .tc main_v1) = _
  after_results_simp
  rfl

theorem entry0_dst (c : Dev nD) : W1 m ρ c (Proc.devRef .tc main_v3) = dstRow (m ((c.tc : Thread nD τ).loc main_arg1)) := by
  show StableHlo.after hostOps0 (W0 m ρ c) (Proc.devRef .tc main_v3) = _
  after_results_simp
  rfl

theorem entry0_recip (c : Dev nD) : W1 m ρ c (Proc.devRef .tc main_v12) = recip (m ((c.tc : Thread nD τ).loc main_arg1)) := by
  show StableHlo.after hostOps0 (W0 m ρ c) (Proc.devRef .tc main_v12) = _
  after_results_simp
  rfl

theorem entry0_mean (c : Dev nD) : W1 m ρ c (Proc.devRef .tc main_v24)
    = mean (m ((c.tc : Thread nD τ).loc main_arg1)) (m ((c.tc : Thread nD τ).loc main_arg0)) := by
  show StableHlo.after hostOps0 (W0 m ρ c) (Proc.devRef .tc main_v24) = _
  after_results_simp
  rfl

theorem entry0_arg0 (c : Dev nD) : W1 m ρ c (Proc.devRef .tc main_arg0) = m ((c.tc : Thread nD τ).loc main_arg0) := by
  show StableHlo.after hostOps0 (W0 m ρ c) (Proc.devRef .tc main_arg0) = _
  after_results_simp
theorem entry0_arg2 (c : Dev nD) : W1 m ρ c (Proc.devRef .tc main_arg2) = m ((c.tc : Thread nD τ).loc main_arg2) := by
  show StableHlo.after hostOps0 (W0 m ρ c) (Proc.devRef .tc main_arg2) = _
  after_results_simp
theorem entry0_arg3 (c : Dev nD) : W1 m ρ c (Proc.devRef .tc main_arg3) = m ((c.tc : Thread nD τ).loc main_arg3) := by
  show StableHlo.after hostOps0 (W0 m ρ c) (Proc.devRef .tc main_arg3) = _
  after_results_simp
theorem entry0_arg4 (c : Dev nD) : W1 m ρ c (Proc.devRef .tc main_arg4) = m ((c.tc : Thread nD τ).loc main_arg4) := by
  show StableHlo.after hostOps0 (W0 m ρ c) (Proc.devRef .tc main_arg4) = _
  after_results_simp

/-! ## What the second pallas_call finds -/

/-- The first pallas_call writes none of the index rows or the reciprocal column: they reach the second stretch as the
    first stretch left them. -/
theorem exit0_src (c : Dev nD) : W2 m ρ c (Proc.devRef .tc main_v1) = srcRow (m ((c.tc : Thread nD τ).loc main_arg1)) :=
  (W2_of_ne m ρ c main_v1 (by decide)).trans (entry0_src m ρ c)
theorem exit0_dst (c : Dev nD) : W2 m ρ c (Proc.devRef .tc main_v3) = dstRow (m ((c.tc : Thread nD τ).loc main_arg1)) :=
  (W2_of_ne m ρ c main_v3 (by decide)).trans (entry0_dst m ρ c)
theorem exit0_recip (c : Dev nD) : W2 m ρ c (Proc.devRef .tc main_v12) = recip (m ((c.tc : Thread nD τ).loc main_arg1)) :=
  (W2_of_ne m ρ c main_v12 (by decide)).trans (entry0_recip m ρ c)

/-- The mean the second stretch computes, over what the boundary after the first pallas_call holds. -/
theorem entry1_mean_raw (c : Dev nD) : W3 m ρ c (Proc.devRef .tc main_v37)
    = mulf
        (Host.scatterAdd (F := Ideal) scatter_S50000x128_S800000x1_S800000x128_1_0_0_1
          (broadcastInDim S50000x128 ![] bcast_S_S50000x128 (constant (F := Ideal) S_ .f32 0x00000000#32))
          (broadcastInDim S800000x1 ![0] bcast_S800000_S800000x1_0 (W2 m ρ c (Proc.devRef .tc main_v3)))
          (Host.gather gather_S50000x128_S800000x1_S800000x128_1_0_n_n_0_1_1128 (W2 m ρ c (Proc.devRef .tc main_v25))
            (broadcastInDim S800000x1 ![0] bcast_S800000_S800000x1_0
              (select (cmpi .slt (W2 m ρ c (Proc.devRef .tc main_v1)) (broadcastInDim S800000 ![] bcast_S_S800000 (constantI S_ 32 0#32)))
                (addi (W2 m ρ c (Proc.devRef .tc main_v1)) (broadcastInDim S800000 ![] bcast_S_S800000 (constantI S_ 32 50000#32)))
                (W2 m ρ c (Proc.devRef .tc main_v1))))))
        (broadcastInDim S50000x128 ![0, 1] bcast_S50000x1_S50000x128_0_1 (W2 m ρ c (Proc.devRef .tc main_v12))) := by
  show StableHlo.after hostOps1 (W2 m ρ c) (Proc.devRef .tc main_v37) = _
  after_results_simp

/-- … which is the neighbour mean of the hidden features the first pallas_call left. -/
theorem entry1_mean (c : Dev nD) : W3 m ρ c (Proc.devRef .tc main_v37)
    = mean (m ((c.tc : Thread nD τ).loc main_arg1)) (W2 m ρ c (Proc.devRef .tc main_v25)) := by
  rw [entry1_mean_raw, exit0_src, exit0_dst, exit0_recip]
  rfl

/-- The second stretch writes neither the hidden features nor a weight or bias. -/
theorem entry1_hidden (c : Dev nD) : W3 m ρ c (Proc.devRef .tc main_v25) = W2 m ρ c (Proc.devRef .tc main_v25) := by
  show StableHlo.after hostOps1 (W2 m ρ c) (Proc.devRef .tc main_v25) = _
  after_results_simp

end Cert.KernelIdeal.HostValue

end
-- ==== Proof.SageSpec.lean ====
/-
  The mathematics of one GraphSAGE head, index by index, over the extended reals.

  A node's new feature `q` is   (mean row · left weights)[q]  +  bias[q]  +  (own row · right weights)[q],
  each product a sum over the 128 input features; the hidden layer clamps that at zero from below.
  Both programs compute the neighbour mean from one aggregated sum and one neighbour count `c ≥ 1`: one multiplies
  by `1 / c`, the other divides by `c`.  On the extended reals these agree for EVERY aggregated value, infinite
  ones included, because `c = max count 1` is never zero, so both are the product with `c⁻¹`.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- Entry `k` of the feature row that result index `i` belongs to. -/
abbrev rowAt {D : ℕ} (i : (⟨2, ![50000, D]⟩ : Shape).Idx) (k : Fin 128) : (⟨2, ![50000, 128]⟩ : Shape).Idx :=
  fun a => match a with
  | ⟨0, _⟩ => ⟨(i 0).val, (i 0).isLt⟩
  | ⟨1, _⟩ => ⟨k.val, k.isLt⟩

/-- Entry `k` of the weight column that result index `i` belongs to. -/
abbrev colAt {D : ℕ} (i : (⟨2, ![50000, D]⟩ : Shape).Idx) (k : Fin 128) : (⟨2, ![128, D]⟩ : Shape).Idx :=
  fun a => match a with
  | ⟨0, _⟩ => ⟨k.val, k.isLt⟩
  | ⟨1, _⟩ => ⟨(i 1).val, (i 1).isLt⟩

/-- The bias entry of result index `i`'s column. -/
abbrev biasAt {D : ℕ} (i : (⟨2, ![50000, D]⟩ : Shape).Idx) : (⟨1, ![D]⟩ : Shape).Idx :=
  fun a => match a with
  | ⟨0, _⟩ => ⟨(i 1).val, (i 1).isLt⟩

/-- One SAGE head: `M · Wl + b + X · Wr`, row by row (`M` the neighbour means, `X` the nodes' own features). -/
def head {D : ℕ} (M X : FVec Ideal ⟨2, ![50000, 128]⟩ .f32) (Wl : FVec Ideal ⟨2, ![128, D]⟩ .f32)
    (b : FVec Ideal ⟨1, ![D]⟩ .f32) (Wr : FVec Ideal ⟨2, ![128, D]⟩ .f32) : FVec Ideal ⟨2, ![50000, D]⟩ .f32 :=
  fun i => ((∑ k : Fin 128, M (rowAt i k) * Wl (colAt i k)) + b (biasAt i)) + ∑ k : Fin 128, X (rowAt i k) * Wr (colAt i k)

/-- The hidden layer: the head clamped at zero from below. -/
def hidden (M X : FVec Ideal ⟨2, ![50000, 128]⟩ .f32) (Wl : FVec Ideal ⟨2, ![128, 128]⟩ .f32)
    (b : FVec Ideal ⟨1, ![128]⟩ .f32) (Wr : FVec Ideal ⟨2, ![128, 128]⟩ .f32) : FVec Ideal ⟨2, ![50000, 128]⟩ .f32 :=
  fun i => max (head M X Wl b Wr i) 0

/-- The f32 word of one denotes the real 1. -/
theorem ofBits_one_f32 : Ideal.ofBits .f32 0x3F800000#32 = 1 := by
  simp [Ideal.ofBits, Ideal.ieee, -EReal.coe_mul]; norm_num

/-- Multiplying by the reciprocal of a count clamped below by one is dividing by it, for every extended real `a` and
    whatever the count is: the clamped count is at least one, hence not zero, and both sides are `a · c⁻¹`. -/
theorem mul_recip_eq_div (a x : EReal) : a * Ideal.div 1 (max x 1) = Ideal.div a (max x 1) := by
  have hne : max x (1 : EReal) ≠ 0 := (lt_of_lt_of_le zero_lt_one (le_max_right x 1)).ne'
  unfold Ideal.div
  rw [if_neg hne, if_neg hne, one_mul]

end Cert.Sage

end
-- ==== Proof.Region0Value.lean ====
/-
  What the program's first launch leaves in its output array, as ONE function of the arrays it reads.

  The launch walks ten grid points; at point t it reads rows 5000·t … 5000·t + 4999 of the neighbour means and of the
  node features, the two weight matrices and the bias whole, and writes the same rows of its output.  Its body is
  two matrix products into zero accumulators, their sum, the bias row added to every row, and a clamp at zero from
  below.  Read at one element (p, q) of a block that is

      max ((Σₖ mean[p,k]·Wl[k,q] + Σₖ own[p,k]·Wr[k,q]) + bias[q]) 0,

  which is the hidden layer of the specification (the specification adds the bias before the second product: the
  extended reals' addition is commutative and associative).  Every row of the output lies in exactly the block of the
  point  row / 5000, so after the ten write-backs the whole array is the hidden layer of the arrays read.
-/
import proofs.«147813_j7421703487977_1_alg».proof.Proof.Gen.KernelIdeal.Frame
import proofs.«147813_j7421703487977_1_alg».proof.Proof.SageSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## One matrix product of the body, read at an element -/

/-- The row axis of the left operand's index is the result's row, -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- its column axis the contraction's coordinate; -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the row axis of the right operand's index is the contraction's coordinate, -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- and its column axis the result's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product into the zero accumulator, at element (p, q): the sum over the 128 inner features of row p of the
    left operand times column q of the right. -/
theorem product_apply {φ₁ φ₂ : FTy} (x : FVec Ideal S5000x128 φ₁) (w : FVec Ideal S128x128 φ₂) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's arithmetic at an element of a block -/

/-- The body's result at element (p, q) of a block: the two products' sum, plus the bias entry of column q, clamped
    at zero from below. -/
theorem body_apply (x0 x1 : FVec Ideal S5000x128 .f32) (wl wr : FVec Ideal S128x128 .f32) (b : FVec Ideal S128 .f32)
    (p : Fin 5000) (q : Fin 128) :
    (k0_pay1 (F := Ideal) x0 x1 wl wr b) (ix2 p q)
      = max (((∑ k : Fin 128, x0 (ix2 p k) * wl (ix2 k q)) + ∑ k : Fin 128, x1 (ix2 p k) * wr (ix2 k q)) + b (ix1 q))
          (Ideal.ofBits .f32 0x00000000#32) := by
  unfold k0_pay1
  rw [maximumf_apply, addf_apply, addf_apply, broadcast_apply, product_apply, product_apply,
    broadcastTo_1b_ab_apply, shapeCast_a_1a_apply, shapeCast_self]
  rfl

/-! ## Where the windows' blocks sit -/

theorem origin2 : (![0, 0] : Fin 2 → Nat) = fun _ => 0 := funext fun a => by fin_cases a <;> rfl
theorem origin1 : (![0] : Fin 1 → Nat) = fun _ => 0 := funext fun a => by fin_cases a <;> rfl

/-- The index maps at every grid point: the two row-blocked inputs move with the output, the weights and
    the bias stay at block 0, and the output's row block is one of the ten while its column block is 0. -/
theorem block_indices : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every one of the ten row blocks is SOME point's. -/
theorem block_onto : ∀ (q0 : Fin 10) (q1 : Fin 1), ∃ t : Fin cfg0.N, win0_5.index t = ![q0.val + 0, q1.val + 0] :=
  (by decide +kernel : ∀ (q0 : Fin 10) (q1 : Fin 1), ∃ t : Fin grid0.N, win0_5.index t = ![q0.val + 0, q1.val + 0])

/-! ## What one point writes back -/

section
variable (V : (c : Dev nD) → (b : Ref sig .tc) → Buf (Elt Ideal) ((c : Thread nD τ).loc b))

/-- WHAT POINT t WRITES BACK is block t of the hidden layer of the arrays as the region finds them. -/
theorem flushed_eq (c : Dev nD) (t : Fin cfg0.N) :
    (dat0 (F := Ideal) V c).flushed 5 t = ((cfg0.win 5).blk t).view.read (Elt Ideal)
      (Cert.Sage.hidden (V c main_v24) (V c main_arg0) (V c main_arg2) (V c main_arg3) (V c main_arg4)) := by
  show (cfg0.win 5).cut (grid0.coords t) ((dat0 (F := Ideal) V c).after 5 t) = _
  rw [after0_5]
  unfold out0_5
  rw [View.canon_unit_zero origin2]
  simp only [View.ld_unit_zero (S := S5000x128) origin2, View.ld_unit_zero (S := S128x128) origin2, View.ld_unit_zero (S := S128) origin1]
  obtain ⟨e00, e01, e10, e11, e20, e21, e30, e40, e41, e50, e51⟩ := block_indices t
  funext j
  obtain ⟨p, q, rfl⟩ : ∃ (p : Fin 5000) (q : Fin 128), j = ix2 p q := ⟨j 0, j 1, eq_ix2 j⟩
  refine (body_apply (iblk0 V c 0 t) (iblk0 V c 1 t) (iblk0 V c 2 t) (iblk0 V c 4 t) (iblk0 V c 3 t) p q).trans ?_
  -- rows of the two row-blocked inputs: the output's row, the inner feature k
  have h0 : ∀ k : Fin 128, iblk0 V c 0 t (ix2 p k) = V c main_v24 (Cert.Sage.rowAt (((cfg0.win 5).blk t).view.emb (ix2 p q)) k) := fun k => by
    show V c main_v24 (((cfg0.win 0).blk t).view.emb (ix2 p k)) = _
    refine congrArg (V c main_v24) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  have h1 : ∀ k : Fin 128, iblk0 V c 1 t (ix2 p k) = V c main_arg0 (Cert.Sage.rowAt (((cfg0.win 5).blk t).view.emb (ix2 p q)) k) := fun k => by
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  -- columns of the two weight matrices: the inner feature k, the output's column
  have h2 : ∀ k : Fin 128, iblk0 V c 2 t (ix2 k q) = V c main_arg2 (Cert.Sage.colAt (((cfg0.win 5).blk t).view.emb (ix2 p q)) k) := fun k => by
    show V c main_arg2 (((cfg0.win 2).blk t).view.emb (ix2 k q)) = _
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  have h4 : ∀ k : Fin 128, iblk0 V c 4 t (ix2 k q) = V c main_arg4 (Cert.Sage.colAt (((cfg0.win 5).blk t).view.emb (ix2 p q)) k) := fun k => by
    show V c main_arg4 (((cfg0.win 4).blk t).view.emb (ix2 k q)) = _
    refine congrArg (V c main_arg4) (funext fun a => Fin.ext ?_)
    match a with
    | ⟨0, _⟩ => show win0_4.index t (0 : Fin 2) * 128 + 1 * k.val = k.val; omega
    | ⟨1, _⟩ => show win0_4.index t (1 : Fin 2) * 128 + 1 * q.val = win0_5.index t (1 : Fin 2) * 128 + 1 * q.val; omega
  -- the bias entry: the output's column
  have h3 : iblk0 V c 3 t (ix1 q) = V c main_arg3 (Cert.Sage.biasAt (((cfg0.win 5).blk t).view.emb (ix2 p q))) := by
    show V c main_arg3 (((cfg0.win 3).blk t).view.emb (ix1 q)) = _
    refine congrArg (V c main_arg3) (funext fun a => Fin.ext ?_)
    match a with
    | ⟨0, _⟩ => show win0_3.index t (0 : Fin 1) * 128 + 1 * q.val = win0_5.index t (1 : Fin 2) * 128 + 1 * q.val; omega
  simp only [h0, h1, h2, h3, h4]
  show _ = Cert.Sage.hidden (V c main_v24) (V c main_arg0) (V c main_arg2) (V c main_arg3) (V c main_arg4) (((cfg0.win 5).blk t).view.emb (ix2 p q))
  unfold Cert.Sage.hidden Cert.Sage.head
  rw [Ideal.ofBits_zero_f32, add_right_comm]

/-! ## The ten blocks fill the array -/

/-- An index of the array is in point t's block iff each coordinate is in the block's range on its axis. -/
theorem mem_block (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- Every index of the array is in the block of SOME point, which writes it back: the point whose row block is
    row / 5000. -/
theorem blocks_cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := block_onto ⟨(i 0).val / 5000, by omega⟩ ⟨(i 1).val / 128, by omega⟩
  have q0 : win0_5.index t (0 : Fin 2) = (i 0).val / 5000 + 0 := congrFun ht 0
  have q1 : win0_5.index t (1 : Fin 2) = (i 1).val / 128 + 0 := congrFun ht 1
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY after the ten write-backs: the hidden layer of the arrays the region finds. -/
theorem final (c : Dev nD) : (dat0 (F := Ideal) V c).arrAt 5 cfg0.N
    = Cert.Sage.hidden (V c main_v24) (V c main_arg0) (V c main_arg2) (V c main_arg3) (V c main_arg4) :=
  (dat0 (F := Ideal) V c).arrAt_eq_of_cover 5 _ (fun t _ => flushed_eq V c t) blocks_cover

end

end Cert.KernelIdeal.Region0

end
-- ==== Proof.Region1Value.lean ====
/-
  What the second layer's kernel leaves in its two output arrays.

  The kernel walks the 50000 nodes in ten blocks of 5000 rows.  At a block it multiplies the block of neighbour
  means by the left weights and the block of the nodes' own hidden features by the right weights (each product a
  sum over the 128 hidden features, into a zero accumulator), adds the two products, and adds the bias row to
  every row of the block; it does so twice, once per output, with that output's weights and bias.  A block of an
  output is therefore the same block of ONE function of the whole arrays, the SAGE head

      (mean row · left weights)[q] + bias[q] + (own row · right weights)[q],

  the two sides differing only in the order of the last two summands.  The ten blocks tile an output array, so the
  array ends holding that function.
-/
import proofs.«147813_j7421703487977_1_alg».proof.Proof.Gen.KernelIdeal.Frame
import proofs.«147813_j7421703487977_1_alg».proof.Proof.SageSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-! ## One product of the body at an entry: a sum over the 128 hidden features -/

/-- The left operand of a product is read at the result's row, -/
theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- and at the summation index as its column. -/
theorem lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand is read at the summation index as its row, -/
theorem rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- and at the result's column. -/
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A [5000,128] by [128,64] product into the zero accumulator, at entry `(p, q)`: row `p` of the left operand
    against column `q` of the right one. -/
theorem product_apply {φ₁ φ₂ : FTy} (x : FVec Ideal S5000x128 φ₁) (w : FVec Ideal S128x64 φ₂) (p : Fin 5000) (q : Fin 64) :
    matmul dot_S5000x128_S128x64_S5000x64_1_0_0_1_n_n none x w (constant (F := Ideal) S5000x64 .f32 0x00000000#32) (ix2 p q)
      = ∑ k : Fin 128, x (ix2 p k) * w (ix2 k q) := by
  refine (Ideal.matmul_constant_zero_apply dot_S5000x128_S128x64_S5000x64_1_0_0_1_n_n none x w (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The body's result for one output, at an entry of the block -/

/-- The first output's block at `(p, q)`: the two products' entries, then the bias of column `q`.  (Narrowing to the
    16-bit format changes nothing over the extended reals, and the cast to the same shape is the identity.) -/
theorem block_apply (x0 x1 : FVec Ideal S5000x128 .f32) (wl wr : FVec Ideal S128x64 .f32) (b : FVec Ideal S64 .f32)
    (p : Fin 5000) (q : Fin 64) :
    (k1_pay3 (F := Ideal) x0 x1 wl wr b) (ix2 p q)
      = ((∑ k : Fin 128, x0 (ix2 p k) * wl (ix2 k q)) + ∑ k : Fin 128, x1 (ix2 p k) * wr (ix2 k q)) + b (ix1 q) := by
  dsimp only [k1_pay3, k1_pay1, k1_pay2]
  rw [shapeCast_self x0, shapeCast_self x1]
  refine (addf_apply _ _ _).trans ?_
  refine congrArg₂ (· + ·) ((addf_apply _ _ _).trans (congrArg₂ (· + ·) ?_ ?_)) ?_
  · exact product_apply _ _ p q
  · exact product_apply _ _ p q
  · exact (broadcastTo_1b_ab_apply _ _ p q).trans (shapeCast_a_1a_apply b _ 0 q)

/-- The second output's block is the same expression of its own weights and bias. -/
theorem block_apply' (x0 x1 : FVec Ideal S5000x128 .f32) (wl wr : FVec Ideal S128x64 .f32) (b : FVec Ideal S64 .f32)
    (p : Fin 5000) (q : Fin 64) :
    (k1_pay4 (F := Ideal) x0 x1 wl wr b) (ix2 p q)
      = ((∑ k : Fin 128, x0 (ix2 p k) * wl (ix2 k q)) + ∑ k : Fin 128, x1 (ix2 p k) * wr (ix2 k q)) + b (ix1 q) :=
  block_apply x0 x1 wl wr b p q

/-- The block's entry is the SAGE head at the array's index `i`, once each operand of the block is the matching
    entry of its whole array: row `(i 0)` of the two feature arrays, column `(i 1)` of the two weight arrays, entry
    `(i 1)` of the bias.  The body adds the bias last and the head adds it between the two products. -/
theorem block_eq_head (M X : FVec Ideal S50000x128 .f32) (Wl : FVec Ideal S128x64 .f32) (B : FVec Ideal S64 .f32)
    (Wr : FVec Ideal S128x64 .f32) (x0 x1 : FVec Ideal S5000x128 .f32) (wl wr : FVec Ideal S128x64 .f32)
    (b : FVec Ideal S64 .f32) (i : S50000x64.Idx) (p : Fin 5000) (q : Fin 64)
    (hx0 : ∀ k : Fin 128, x0 (ix2 p k) = M (Cert.Sage.rowAt i k))
    (hx1 : ∀ k : Fin 128, x1 (ix2 p k) = X (Cert.Sage.rowAt i k))
    (hwl : ∀ k : Fin 128, wl (ix2 k q) = Wl (Cert.Sage.colAt i k))
    (hwr : ∀ k : Fin 128, wr (ix2 k q) = Wr (Cert.Sage.colAt i k))
    (hb : b (ix1 q) = B (Cert.Sage.biasAt i)) :
    (k1_pay3 (F := Ideal) x0 x1 wl wr b) (ix2 p q) = Cert.Sage.head (D := 64) M X Wl B Wr i := by
  refine (block_apply x0 x1 wl wr b p q).trans ?_
  show _ = ((∑ k : Fin 128, M (Cert.Sage.rowAt i k) * Wl (Cert.Sage.colAt i k)) + B (Cert.Sage.biasAt i))
      + ∑ k : Fin 128, X (Cert.Sage.rowAt i k) * Wr (Cert.Sage.colAt i k)
  have e0 : (∑ k : Fin 128, x0 (ix2 p k) * wl (ix2 k q)) = ∑ k : Fin 128, M (Cert.Sage.rowAt i k) * Wl (Cert.Sage.colAt i k) :=
    Finset.sum_congr rfl fun k _ => by rw [hx0 k, hwl k]
  have e1 : (∑ k : Fin 128, x1 (ix2 p k) * wr (ix2 k q)) = ∑ k : Fin 128, X (Cert.Sage.rowAt i k) * Wr (Cert.Sage.colAt i k) :=
    Finset.sum_congr rfl fun k _ => by rw [hx1 k, hwr k]
  rw [e0, e1, hb]
  exact add_right_comm _ _ _

/-- The same for the second output's block. -/
theorem block_eq_head' (M X : FVec Ideal S50000x128 .f32) (Wl : FVec Ideal S128x64 .f32) (B : FVec Ideal S64 .f32)
    (Wr : FVec Ideal S128x64 .f32) (x0 x1 : FVec Ideal S5000x128 .f32) (wl wr : FVec Ideal S128x64 .f32)
    (b : FVec Ideal S64 .f32) (i : S50000x64.Idx) (p : Fin 5000) (q : Fin 64)
    (hx0 : ∀ k : Fin 128, x0 (ix2 p k) = M (Cert.Sage.rowAt i k))
    (hx1 : ∀ k : Fin 128, x1 (ix2 p k) = X (Cert.Sage.rowAt i k))
    (hwl : ∀ k : Fin 128, wl (ix2 k q) = Wl (Cert.Sage.colAt i k))
    (hwr : ∀ k : Fin 128, wr (ix2 k q) = Wr (Cert.Sage.colAt i k))
    (hb : b (ix1 q) = B (Cert.Sage.biasAt i)) :
    (k1_pay4 (F := Ideal) x0 x1 wl wr b) (ix2 p q) = Cert.Sage.head (D := 64) M X Wl B Wr i :=
  block_eq_head M X Wl B Wr x0 x1 wl wr b i p q hx0 hx1 hwl hwr hb

/-! ## The index maps over the ten grid points -/

theorem zero_offsets2 : (![0, 0] : Fin 2 → Nat) = fun _ => 0 := funext fun a => by fin_cases a <;> rfl
theorem zero_offsets1 : (![0] : Fin 1 → Nat) = fun _ => 0 := funext fun a => by fin_cases a <;> rfl

/-- Decided over the grid: the two feature windows and the two output windows all sit at the same block of rows, a
    block index at most 9, and at column block 0; the weight and bias windows are whole arrays (block index 0). -/
theorem index_facts : ∀ t : Fin cfg1.N,
    win1_0.index t (0 : Fin 2) = win1_8.index t (0 : Fin 2) ∧ win1_0.index t (1 : Fin 2) = 0
    ∧ win1_1.index t (0 : Fin 2) = win1_8.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_9.index t (0 : Fin 2) = win1_8.index t (0 : Fin 2) ∧ win1_9.index t (1 : Fin 2) = 0
    ∧ win1_8.index t (0 : Fin 2) ≤ 9 ∧ win1_8.index t (1 : Fin 2) = 0 :=
  (by decide +kernel : ∀ t : Fin grid1.N, _)

/-- Every block of rows of the first output is some grid point's, -/
theorem index_onto8 : ∀ (r : Fin 10), ∃ t : Fin cfg1.N, win1_8.index t = ![r.val, 0] :=
  (by decide +kernel : ∀ (r : Fin 10), ∃ t : Fin grid1.N, win1_8.index t = ![r.val, 0])
/-- and so is every block of rows of the second. -/
theorem index_onto9 : ∀ (r : Fin 10), ∃ t : Fin cfg1.N, win1_9.index t = ![r.val, 0] :=
  (by decide +kernel : ∀ (r : Fin 10), ∃ t : Fin grid1.N, win1_9.index t = ![r.val, 0])

variable (V : (c : Dev nD) → (b : Ref sig .tc) → Buf (Elt Ideal) ((c : Thread nD τ).loc b))

/-! ## Output window 8 -/

/-- What grid point `t` writes back to the first output is block `t` of the head of the whole arrays: each loaded
    block is read where the output block's rows (and, for the weights and the bias, its columns) say. -/
theorem written_block8 (c : Dev nD) (t : Fin cfg1.N) :
    (dat1 (F := Ideal) V c).flushed 8 t = ((cfg1.win 8).blk t).view.read (Elt Ideal)
      (Cert.Sage.head (D := 64) (V c main_v37) (V c main_v25) (V c main_arg5) (V c main_arg6) (V c main_arg7)) := by
  show (cfg1.win 8).cut (grid1.coords t) ((dat1 (F := Ideal) V c).after 8 t) = _
  rw [after1_8]
  unfold out1_8
  rw [View.canon_unit_zero zero_offsets2]
  simp only [View.ld_unit_zero (S := S5000x128) zero_offsets2, View.ld_unit_zero (S := S128x64) zero_offsets2,
    View.ld_unit_zero (S := S64) zero_offsets1]
  obtain ⟨f00, f01, f10, f11, f20, f21, f30, f40, f41, f50, f51, f60, f70, f71, f90, f91, f8le, f81⟩ := index_facts t
  funext j
  have hj0 : (j 0).val < 5000 := (j 0).isLt
  have hj1 : (j 1).val < 64 := (j 1).isLt
  have hx : (cfg1.win 8).xinj (grid1.coords t) j = ix2 (⟨(j 0).val, hj0⟩ : Fin 5000) (⟨(j 1).val, hj1⟩ : Fin 64) :=
    funext fun a => by match a with | ⟨0, _⟩ => rfl | ⟨1, _⟩ => rfl
  show k1_pay3 (F := Ideal) (iblk1 V c 0 t) (iblk1 V c 1 t) (iblk1 V c 2 t) (iblk1 V c 4 t) (iblk1 V c 3 t)
      ((cfg1.win 8).xinj (grid1.coords t) j)
    = Cert.Sage.head (D := 64) (V c main_v37) (V c main_v25) (V c main_arg5) (V c main_arg6) (V c main_arg7) (((cfg1.win 8).blk t).view.emb j)
  refine (congrArg (k1_pay3 (F := Ideal) (iblk1 V c 0 t) (iblk1 V c 1 t) (iblk1 V c 2 t) (iblk1 V c 4 t) (iblk1 V c 3 t)) hx).trans ?_
  refine block_eq_head (V c main_v37) (V c main_v25) (V c main_arg5) (V c main_arg6) (V c main_arg7)
    (iblk1 V c 0 t) (iblk1 V c 1 t) (iblk1 V c 2 t) (iblk1 V c 4 t) (iblk1 V c 3 t)
    (((cfg1.win 8).blk t).view.emb j) ⟨(j 0).val, hj0⟩ ⟨(j 1).val, hj1⟩ (fun k => ?_) (fun k => ?_) (fun k => ?_) (fun k => ?_) ?_
  · show V c main_v37 (((cfg1.win 0).blk t).view.emb (ix2 (⟨(j 0).val, hj0⟩ : Fin 5000) k))
        = V c main_v37 (Cert.Sage.rowAt (((cfg1.win 8).blk t).view.emb j) k)
    refine congrArg (V c main_v37) ?_
    funext a; apply Fin.ext
    match a with
    | ⟨0, _⟩ => show win1_0.index t (0 : Fin 2) * 5000 + 1 * (j 0).val = win1_8.index t (0 : Fin 2) * 5000 + 1 * (j 0).val; omega
    | ⟨1, _⟩ => show win1_0.index t (1 : Fin 2) * 128 + 1 * k.val = k.val; omega
  · show V c main_v25 (((cfg1.win 1).blk t).view.emb (ix2 (⟨(j 0).val, hj0⟩ : Fin 5000) k))
        = V c main_v25 (Cert.Sage.rowAt (((cfg1.win 8).blk t).view.emb j) k)
    refine congrArg (V c main_v25) ?_
    funext a; apply Fin.ext
    match a with
    | ⟨0, _⟩ => show win1_1.index t (0 : Fin 2) * 5000 + 1 * (j 0).val = win1_8.index t (0 : Fin 2) * 5000 + 1 * (j 0).val; omega
    | ⟨1, _⟩ => show win1_1.index t (1 : Fin 2) * 128 + 1 * k.val = k.val; omega
  · show V c main_arg5 (((cfg1.win 2).blk t).view.emb (ix2 k (⟨(j 1).val, hj1⟩ : Fin 64)))
        = V c main_arg5 (Cert.Sage.colAt (((cfg1.win 8).blk t).view.emb j) k)
    refine congrArg (V c main_arg5) ?_
    funext a; apply Fin.ext
    match a with
    | ⟨0, _⟩ => show win1_2.index t (0 : Fin 2) * 128 + 1 * k.val = k.val; omega
    | ⟨1, _⟩ => show win1_2.index t (1 : Fin 2) * 64 + 1 * (j 1).val = win1_8.index t (1 : Fin 2) * 64 + 1 * (j 1).val; omega
  · show V c main_arg7 (((cfg1.win 4).blk t).view.emb (ix2 k (⟨(j 1).val, hj1⟩ : Fin 64)))
        = V c main_arg7 (Cert.Sage.colAt (((cfg1.win 8).blk t).view.emb j) k)
    refine congrArg (V c main_arg7) ?_
    funext a; apply Fin.ext
    match a with
    | ⟨0, _⟩ => show win1_4.index t (0 : Fin 2) * 128 + 1 * k.val = k.val; omega
    | ⟨1, _⟩ => show win1_4.index t (1 : Fin 2) * 64 + 1 * (j 1).val = win1_8.index t (1 : Fin 2) * 64 + 1 * (j 1).val; omega
  · show V c main_arg6 (((cfg1.win 3).blk t).view.emb (ix1 (⟨(j 1).val, hj1⟩ : Fin 64)))
        = V c main_arg6 (Cert.Sage.biasAt (((cfg1.win 8).blk t).view.emb j))
    refine congrArg (V c main_arg6) ?_
    funext a; apply Fin.ext
    match a with
    | ⟨0, _⟩ => show win1_3.index t (0 : Fin 1) * 64 + 1 * (j 1).val = win1_8.index t (1 : Fin 2) * 64 + 1 * (j 1).val; omega

/-- An index of the first output array is in point `t`'s block iff each coordinate is in the block's range. -/
theorem mem_block8 (t : Fin cfg1.N) (i : S50000x64.Idx) :
    i ∈ ((cfg1.win 8).blk t).view.set ↔ ∀ a : Fin 2, win1_8.index t a * S5000x64.size a ≤ (i a).val
      ∧ (i a).val < win1_8.index t a * S5000x64.size a + S5000x64.size a := by
  show i ∈ ((View.whole main_v38_0).slice (win1_8.rect t)).set ↔ _
  rw [View.set_slice_whole, Rect.mem_set_unit]
  exact Iff.rfl

/-- The ten blocks tile the first output: row `r` lies in the block of the point whose block index is `r / 5000`. -/
theorem tiled8 (i : S50000x64.Idx) :
    ∃ t : Fin cfg1.N, (cfg1.win 8).flush t = true ∧ i ∈ ((cfg1.win 8).blk t).view.set := by
  have hi0 : (i 0).val < 50000 := (i 0).isLt
  have hi1 : (i 1).val < 64 := (i 1).isLt
  obtain ⟨t, ht⟩ := index_onto8 ⟨(i 0).val / 5000, by omega⟩
  have q0 : win1_8.index t (0 : Fin 2) = (i 0).val / 5000 := congrFun ht 0
  have q1 : win1_8.index t (1 : Fin 2) = 0 := congrFun ht 1
  refine ⟨t, flush1_8 t, ?_⟩
  rw [mem_block8]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 64 ≤ (i 1).val ∧ (i 1).val < win1_8.index t (1 : Fin 2) * 64 + 64; omega

/-- THE FIRST OUTPUT after the region: the SAGE head of the neighbour means, the hidden features and the first
    output's weights and bias, as the region finds them. -/
theorem final_mu (c : Dev nD) : (dat1 (F := Ideal) V c).arrAt 8 cfg1.N
    = Cert.Sage.head (D := 64) (V c main_v37) (V c main_v25) (V c main_arg5) (V c main_arg6) (V c main_arg7) :=
  (dat1 (F := Ideal) V c).arrAt_eq_of_cover 8 _ (fun t _ => written_block8 V c t) tiled8

/-! ## Output window 9 -/

/-- What grid point `t` writes back to the second output is block `t` of the head of the whole arrays: each loaded
    block is read where the output block's rows (and, for the weights and the bias, its columns) say. -/
theorem written_block9 (c : Dev nD) (t : Fin cfg1.N) :
    (dat1 (F := Ideal) V c).flushed 9 t = ((cfg1.win 9).blk t).view.read (Elt Ideal)
      (Cert.Sage.head (D := 64) (V c main_v37) (V c main_v25) (V c main_arg8) (V c main_arg9) (V c main_arg10)) := by
  show (cfg1.win 9).cut (grid1.coords t) ((dat1 (F := Ideal) V c).after 9 t) = _
  rw [after1_9]
  unfold out1_9
  rw [View.canon_unit_zero zero_offsets2]
  simp only [View.ld_unit_zero (S := S5000x128) zero_offsets2, View.ld_unit_zero (S := S128x64) zero_offsets2,
    View.ld_unit_zero (S := S64) zero_offsets1]
  obtain ⟨f00, f01, f10, f11, f20, f21, f30, f40, f41, f50, f51, f60, f70, f71, f90, f91, f8le, f81⟩ := index_facts t
  funext j
  have hj0 : (j 0).val < 5000 := (j 0).isLt
  have hj1 : (j 1).val < 64 := (j 1).isLt
  have hx : (cfg1.win 9).xinj (grid1.coords t) j = ix2 (⟨(j 0).val, hj0⟩ : Fin 5000) (⟨(j 1).val, hj1⟩ : Fin 64) :=
    funext fun a => by match a with | ⟨0, _⟩ => rfl | ⟨1, _⟩ => rfl
  show k1_pay4 (F := Ideal) (iblk1 V c 0 t) (iblk1 V c 1 t) (iblk1 V c 5 t) (iblk1 V c 7 t) (iblk1 V c 6 t)
      ((cfg1.win 9).xinj (grid1.coords t) j)
    = Cert.Sage.head (D := 64) (V c main_v37) (V c main_v25) (V c main_arg8) (V c main_arg9) (V c main_arg10) (((cfg1.win 9).blk t).view.emb j)
  refine (congrArg (k1_pay4 (F := Ideal) (iblk1 V c 0 t) (iblk1 V c 1 t) (iblk1 V c 5 t) (iblk1 V c 7 t) (iblk1 V c 6 t)) hx).trans ?_
  refine block_eq_head' (V c main_v37) (V c main_v25) (V c main_arg8) (V c main_arg9) (V c main_arg10)
    (iblk1 V c 0 t) (iblk1 V c 1 t) (iblk1 V c 5 t) (iblk1 V c 7 t) (iblk1 V c 6 t)
    (((cfg1.win 9).blk t).view.emb j) ⟨(j 0).val, hj0⟩ ⟨(j 1).val, hj1⟩ (fun k => ?_) (fun k => ?_) (fun k => ?_) (fun k => ?_) ?_
  · show V c main_v37 (((cfg1.win 0).blk t).view.emb (ix2 (⟨(j 0).val, hj0⟩ : Fin 5000) k))
        = V c main_v37 (Cert.Sage.rowAt (((cfg1.win 9).blk t).view.emb j) k)
    refine congrArg (V c main_v37) ?_
    funext a; apply Fin.ext
    match a with
    | ⟨0, _⟩ => show win1_0.index t (0 : Fin 2) * 5000 + 1 * (j 0).val = win1_9.index t (0 : Fin 2) * 5000 + 1 * (j 0).val; omega
    | ⟨1, _⟩ => show win1_0.index t (1 : Fin 2) * 128 + 1 * k.val = k.val; omega
  · show V c main_v25 (((cfg1.win 1).blk t).view.emb (ix2 (⟨(j 0).val, hj0⟩ : Fin 5000) k))
        = V c main_v25 (Cert.Sage.rowAt (((cfg1.win 9).blk t).view.emb j) k)
    refine congrArg (V c main_v25) ?_
    funext a; apply Fin.ext
    match a with
    | ⟨0, _⟩ => show win1_1.index t (0 : Fin 2) * 5000 + 1 * (j 0).val = win1_9.index t (0 : Fin 2) * 5000 + 1 * (j 0).val; omega
    | ⟨1, _⟩ => show win1_1.index t (1 : Fin 2) * 128 + 1 * k.val = k.val; omega
  · show V c main_arg8 (((cfg1.win 5).blk t).view.emb (ix2 k (⟨(j 1).val, hj1⟩ : Fin 64)))
        = V c main_arg8 (Cert.Sage.colAt (((cfg1.win 9).blk t).view.emb j) k)
    refine congrArg (V c main_arg8) ?_
    funext a; apply Fin.ext
    match a with
    | ⟨0, _⟩ => show win1_5.index t (0 : Fin 2) * 128 + 1 * k.val = k.val; omega
    | ⟨1, _⟩ => show win1_5.index t (1 : Fin 2) * 64 + 1 * (j 1).val = win1_9.index t (1 : Fin 2) * 64 + 1 * (j 1).val; omega
  · show V c main_arg10 (((cfg1.win 7).blk t).view.emb (ix2 k (⟨(j 1).val, hj1⟩ : Fin 64)))
        = V c main_arg10 (Cert.Sage.colAt (((cfg1.win 9).blk t).view.emb j) k)
    refine congrArg (V c main_arg10) ?_
    funext a; apply Fin.ext
    match a with
    | ⟨0, _⟩ => show win1_7.index t (0 : Fin 2) * 128 + 1 * k.val = k.val; omega
    | ⟨1, _⟩ => show win1_7.index t (1 : Fin 2) * 64 + 1 * (j 1).val = win1_9.index t (1 : Fin 2) * 64 + 1 * (j 1).val; omega
  · show V c main_arg9 (((cfg1.win 6).blk t).view.emb (ix1 (⟨(j 1).val, hj1⟩ : Fin 64)))
        = V c main_arg9 (Cert.Sage.biasAt (((cfg1.win 9).blk t).view.emb j))
    refine congrArg (V c main_arg9) ?_
    funext a; apply Fin.ext
    match a with
    | ⟨0, _⟩ => show win1_6.index t (0 : Fin 1) * 64 + 1 * (j 1).val = win1_9.index t (1 : Fin 2) * 64 + 1 * (j 1).val; omega

/-- An index of the second output array is in point `t`'s block iff each coordinate is in the block's range. -/
theorem mem_block9 (t : Fin cfg1.N) (i : S50000x64.Idx) :
    i ∈ ((cfg1.win 9).blk t).view.set ↔ ∀ a : Fin 2, win1_9.index t a * S5000x64.size a ≤ (i a).val
      ∧ (i a).val < win1_9.index t a * S5000x64.size a + S5000x64.size a := by
  show i ∈ ((View.whole main_v38_1).slice (win1_9.rect t)).set ↔ _
  rw [View.set_slice_whole, Rect.mem_set_unit]
  exact Iff.rfl

/-- The ten blocks tile the second output: row `r` lies in the block of the point whose block index is `r / 5000`. -/
theorem tiled9 (i : S50000x64.Idx) :
    ∃ t : Fin cfg1.N, (cfg1.win 9).flush t = true ∧ i ∈ ((cfg1.win 9).blk t).view.set := by
  have hi0 : (i 0).val < 50000 := (i 0).isLt
  have hi1 : (i 1).val < 64 := (i 1).isLt
  obtain ⟨t, ht⟩ := index_onto9 ⟨(i 0).val / 5000, by omega⟩
  have q0 : win1_9.index t (0 : Fin 2) = (i 0).val / 5000 := congrFun ht 0
  have q1 : win1_9.index t (1 : Fin 2) = 0 := congrFun ht 1
  refine ⟨t, flush1_9 t, ?_⟩
  rw [mem_block9]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 64 ≤ (i 1).val ∧ (i 1).val < win1_9.index t (1 : Fin 2) * 64 + 64; omega

/-- THE SECOND OUTPUT after the region: the same head with the second output's weights and bias. -/
theorem final_logstd (c : Dev nD) : (dat1 (F := Ideal) V c).arrAt 9 cfg1.N
    = Cert.Sage.head (D := 64) (V c main_v37) (V c main_v25) (V c main_arg8) (V c main_arg9) (V c main_arg10) :=
  (dat1 (F := Ideal) V c).arrAt_eq_of_cover 9 _ (fun t _ => written_block9 V c t) tiled9

end Cert.KernelIdeal.Region1

end
-- ==== Proof.KernelValue.lean ====
/-
  The kernel program's two result arrays as functions of its arguments.

  The first pallas_call leaves the hidden features: the clamped head of (neighbour mean of the node features, node
  features, first-layer weights and bias).  The second leaves the two output heads of (neighbour mean of the hidden
  features, hidden features, that head's weights and bias).  The means are the host stretches' (aggregated sum times the
  reciprocal of the clamped count); nothing else of the program reaches the results.
-/
import proofs.«147813_j7421703487977_1_alg».proof.Proof.KernelHost
import proofs.«147813_j7421703487977_1_alg».proof.Proof.KernelIdealRun
import proofs.«147813_j7421703487977_1_alg».proof.Proof.Region0Value
import proofs.«147813_j7421703487977_1_alg».proof.Proof.Region1Value
import proofs.«147813_j7421703487977_1_alg».proof.Proof.SageSpec

set_option maxRecDepth 16384

noncomputable section

namespace Cert.KernelIdeal.KValue

open Cert.KernelIdeal Cert.KernelIdeal.Gen Cert.KernelIdeal.HostValue Idealize.ShloMosaic Idealize.ShloMosaic.TcCoe Idealize.SL.Sem

variable (m : (ℓ : Loc nD τ sig) → Buf (Elt Ideal) ℓ) (ρ : Dev nD → PrngReg)

/-- The hidden features of the kernel program, as a function of its arguments on core `c`. -/
def hiddenOf (c : Dev nD) : Feat :=
  Cert.Sage.hidden (mean (m ((c.tc : Thread nD τ).loc main_arg1)) (m ((c.tc : Thread nD τ).loc main_arg0)))
    (m ((c.tc : Thread nD τ).loc main_arg0)) (m ((c.tc : Thread nD τ).loc main_arg2))
    (m ((c.tc : Thread nD τ).loc main_arg3)) (m ((c.tc : Thread nD τ).loc main_arg4))

/-- After the first pallas_call its output array holds the hidden features. -/
theorem exit0_hidden (c : Dev nD) : W2 m ρ c (Proc.devRef .tc main_v25) = hiddenOf m c := by
  refine (W2_arr m ρ c 5).trans ?_
  rw [Cert.KernelIdeal.Region0.final (V1 m ρ) c]
  show Cert.Sage.hidden (W1 m ρ c (Proc.devRef .tc main_v24)) (W1 m ρ c (Proc.devRef .tc main_arg0))
    (W1 m ρ c (Proc.devRef .tc main_arg2)) (W1 m ρ c (Proc.devRef .tc main_arg3)) (W1 m ρ c (Proc.devRef .tc main_arg4)) = _
  rw [entry0_mean, entry0_arg0, entry0_arg2, entry0_arg3, entry0_arg4]
  rfl

/-- A weight or bias array the second pallas_call reads through a window holds, when the region is entered, what the
    launch memory held: the region's exit contents are the entry's at an input window, and the run ends with it unchanged. -/
theorem entry1_arg5 (c : Dev nD) : W3 m ρ c (Proc.devRef .tc main_arg5) = m ((c.tc : Thread nD τ).loc main_arg5) :=
  ((W4_arr m ρ c 2).trans (((dat1 (V3 m ρ) c).arrAt_in 2 rfl _).trans (A_eq1 (V3 m ρ) c 2))).symm.trans (W4_main_arg5 m ρ c)
theorem entry1_arg6 (c : Dev nD) : W3 m ρ c (Proc.devRef .tc main_arg6) = m ((c.tc : Thread nD τ).loc main_arg6) :=
  ((W4_arr m ρ c 3).trans (((dat1 (V3 m ρ) c).arrAt_in 3 rfl _).trans (A_eq1 (V3 m ρ) c 3))).symm.trans (W4_main_arg6 m ρ c)
theorem entry1_arg7 (c : Dev nD) : W3 m ρ c (Proc.devRef .tc main_arg7) = m ((c.tc : Thread nD τ).loc main_arg7) :=
  ((W4_arr m ρ c 4).trans (((dat1 (V3 m ρ) c).arrAt_in 4 rfl _).trans (A_eq1 (V3 m ρ) c 4))).symm.trans (W4_main_arg7 m ρ c)
theorem entry1_arg8 (c : Dev nD) : W3 m ρ c (Proc.devRef .tc main_arg8) = m ((c.tc : Thread nD τ).loc main_arg8) :=
  ((W4_arr m ρ c 5).trans (((dat1 (V3 m ρ) c).arrAt_in 5 rfl _).trans (A_eq1 (V3 m ρ) c 5))).symm.trans (W4_main_arg8 m ρ c)
theorem entry1_arg9 (c : Dev nD) : W3 m ρ c (Proc.devRef .tc main_arg9) = m ((c.tc : Thread nD τ).loc main_arg9) :=
  ((W4_arr m ρ c 6).trans (((dat1 (V3 m ρ) c).arrAt_in 6 rfl _).trans (A_eq1 (V3 m ρ) c 6))).symm.trans (W4_main_arg9 m ρ c)
theorem entry1_arg10 (c : Dev nD) : W3 m ρ c (Proc.devRef .tc main_arg10) = m ((c.tc : Thread nD τ).loc main_arg10) :=
  ((W4_arr m ρ c 7).trans (((dat1 (V3 m ρ) c).arrAt_in 7 rfl _).trans (A_eq1 (V3 m ρ) c 7))).symm.trans (W4_main_arg10 m ρ c)

/-- The first result: the head of the hidden features and their neighbour mean, with the first output's weights and bias. -/
def result0Of (c : Dev nD) : (⟨S50000x64, .f32⟩ : BufTy).Contents (Elt Ideal) :=
  Cert.Sage.head (D := 64) (mean (m ((c.tc : Thread nD τ).loc main_arg1)) (hiddenOf m c)) (hiddenOf m c)
    (m ((c.tc : Thread nD τ).loc main_arg5)) (m ((c.tc : Thread nD τ).loc main_arg6)) (m ((c.tc : Thread nD τ).loc main_arg7))

/-- The second result: the same with the second output's weights and bias. -/
def result1Of (c : Dev nD) : (⟨S50000x64, .f32⟩ : BufTy).Contents (Elt Ideal) :=
  Cert.Sage.head (D := 64) (mean (m ((c.tc : Thread nD τ).loc main_arg1)) (hiddenOf m c)) (hiddenOf m c)
    (m ((c.tc : Thread nD τ).loc main_arg8)) (m ((c.tc : Thread nD τ).loc main_arg9)) (m ((c.tc : Thread nD τ).loc main_arg10))

theorem exit1_result0 (c : Dev nD) : W4 m ρ c (Proc.devRef .tc main_v38_0) = result0Of m c := by
  refine (W4_arr m ρ c 8).trans ?_
  rw [Cert.KernelIdeal.Region1.final_mu (V3 m ρ) c]
  show Cert.Sage.head (D := 64) (W3 m ρ c (Proc.devRef .tc main_v37)) (W3 m ρ c (Proc.devRef .tc main_v25))
    (W3 m ρ c (Proc.devRef .tc main_arg5)) (W3 m ρ c (Proc.devRef .tc main_arg6)) (W3 m ρ c (Proc.devRef .tc main_arg7)) = _
  rw [entry1_mean, entry1_hidden, exit0_hidden, entry1_arg5, entry1_arg6, entry1_arg7]
  rfl

theorem exit1_result1 (c : Dev nD) : W4 m ρ c (Proc.devRef .tc main_v38_1) = result1Of m c := by
  refine (W4_arr m ρ c 9).trans ?_
  rw [Cert.KernelIdeal.Region1.final_logstd (V3 m ρ) c]
  show Cert.Sage.head (D := 64) (W3 m ρ c (Proc.devRef .tc main_v37)) (W3 m ρ c (Proc.devRef .tc main_v25))
    (W3 m ρ c (Proc.devRef .tc main_arg8)) (W3 m ρ c (Proc.devRef .tc main_arg9)) (W3 m ρ c (Proc.devRef .tc main_arg10)) = _
  rw [entry1_mean, entry1_hidden, exit0_hidden, entry1_arg8, entry1_arg9, entry1_arg10]
  rfl

/-- Every weakly fair execution of the kernel program ends with its two results at those functions of the arguments, and
    the arguments unchanged. -/
theorem run : θ_run defs (onTc (τ := τ) (main (F := Ideal))) ⟨m, fun _ => 0, ρ⟩ (fun r => ∀ c : Dev nD,
      r.2.mem ((c.tc : Thread nD τ).loc main_v38_0) = result0Of m c
      ∧ r.2.mem ((c.tc : Thread nD τ).loc main_v38_1) = result1Of m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (exit1_result0 m ρ c), (h c).2.1.trans (exit1_result1 m ρ c), (h c).2.2⟩)
    (Cert.KernelIdeal.Named.run_named m ρ)

end Cert.KernelIdeal.KValue

end
-- ==== Proof.RefValue.lean ====
import proofs.«147813_j7421703487977_1_alg».proof.Proof.Gen.ReferenceIdeal.Read
import proofs.«147813_j7421703487977_1_alg».proof.Proof.SageSpec
import Idealize.ShloMosaic.Lib.ValueIdx
import Idealize.ShloMosaic.PureOps.Ideal.Laws

/-
  The reference's two results, index by index, as the specification's head function.

  The reference aggregates neighbours twice (once over the input features, once over the hidden features) with the same
  edge list: a row gather at the source nodes, a scatter-add at the destination nodes, and a division by the neighbour
  count clamped below by one.  That aggregation is named here `meanR` and is never opened: the hidden layer is the
  specification's `hidden` of (mean of x, x), and each result is the specification's `head` of (mean of hidden, hidden).
-/

noncomputable section

namespace Cert.ReferenceIdeal.RefValue

open Cert.ReferenceIdeal Cert.ReferenceIdeal.Gen Cert.ReferenceIdeal.Value Cert.ReferenceIdeal.Read
open Idealize.ShloMosaic Idealize.ShloMosaic.ValueIdx Idealize.ShloMosaic.TcCoe Idealize.SL.Sem

/-- The destination node of every edge, as a column of indices. -/
def dstR (ei : (⟨S2x800000, .i32⟩ : BufTy).Contents (Elt Ideal)) : (⟨S800000x1, .i32⟩ : BufTy).Contents (Elt Ideal) :=
  broadcastInDim S800000x1 ![0] bcast_S800000_S800000x1_0 (shapeCast _ (extractStridedSlice S1x800000 ![1, 0] ei slices_S2x800000_S1x800000_1_0) shapeCasts_S1x800000_S800000)

/-- The source node of every edge (a negative entry counted from the end), as a column of indices. -/
def srcR (ei : (⟨S2x800000, .i32⟩ : BufTy).Contents (Elt Ideal)) : (⟨S800000x1, .i32⟩ : BufTy).Contents (Elt Ideal) :=
  broadcastInDim S800000x1 ![0] bcast_S800000_S800000x1_0 (select (cmpi .slt (shapeCast _ (extractStridedSlice S1x800000 ![0, 0] ei slices_S2x800000_S1x800000_0_0) shapeCasts_S1x800000_S800000) (broadcastInDim S800000 ![] bcast_S_S800000 (constantI S_ 32 0#32))) (addi (shapeCast _ (extractStridedSlice S1x800000 ![0, 0] ei slices_S2x800000_S1x800000_0_0) shapeCasts_S1x800000_S800000) (broadcastInDim S800000 ![] bcast_S_S800000 (constantI S_ 32 50000#32))) (shapeCast _ (extractStridedSlice S1x800000 ![0, 0] ei slices_S2x800000_S1x800000_0_0) shapeCasts_S1x800000_S800000))

/-- The number of incoming edges of every node, clamped below by one. -/
def cntR (ei : (⟨S2x800000, .i32⟩ : BufTy).Contents (Elt Ideal)) : (⟨S50000, .f32⟩ : BufTy).Contents (Elt Ideal) :=
  maximumf (Host.scatterAdd (F := Ideal) scatter_S50000_S800000x1_S800000_n_0_0_1 (broadcastInDim S50000 ![] bcast_S_S50000 (constant (F := Ideal) S_ .f32 0x00000000#32)) (dstR ei) (broadcastInDim S800000 ![] bcast_S_S800000 (constant (F := Ideal) S_ .f32 0x3F800000#32))) (broadcastInDim S50000 ![] bcast_S_S50000 (constant (F := Ideal) S_ .f32 0x3F800000#32))

/-- The mean of the rows of `X` over every node's incoming neighbours: the summed rows divided by the clamped count. -/
def meanR (ei : (⟨S2x800000, .i32⟩ : BufTy).Contents (Elt Ideal)) (X : (⟨S50000x128, .f32⟩ : BufTy).Contents (Elt Ideal)) : (⟨S50000x128, .f32⟩ : BufTy).Contents (Elt Ideal) :=
  Host.divf (F := Ideal) (Host.scatterAdd (F := Ideal) scatter_S50000x128_S800000x1_S800000x128_1_0_0_1 (broadcastInDim S50000x128 ![] bcast_S_S50000x128 (constant (F := Ideal) S_ .f32 0x00000000#32)) (dstR ei) (Host.gather gather_S50000x128_S800000x1_S800000x128_1_0_n_n_0_1_1128 X (srcR ei))) (broadcastInDim S50000x128 ![0, 1] bcast_S50000x1_S50000x128_0_1 (broadcastInDim S50000x1 ![0] bcast_S50000_S50000x1_0 (cntR ei)))

/-- The hidden features: the specification's hidden layer of (mean of x, x). -/
def hidR (ei : (⟨S2x800000, .i32⟩ : BufTy).Contents (Elt Ideal)) (x : (⟨S50000x128, .f32⟩ : BufTy).Contents (Elt Ideal)) (wl : (⟨S128x128, .f32⟩ : BufTy).Contents (Elt Ideal)) (b : (⟨S128, .f32⟩ : BufTy).Contents (Elt Ideal)) (wr : (⟨S128x128, .f32⟩ : BufTy).Contents (Elt Ideal)) : (⟨S50000x128, .f32⟩ : BufTy).Contents (Elt Ideal) :=
  Cert.Sage.hidden (meanR ei x) x wl b wr

/-! ### The reference's index functions are the specification's -/

theorem lidx_v23_eq (i : S50000x128.Idx) (k : Fin 128) :
    lidx_main_v23 i k = Cert.Sage.rowAt (D := 128) i k :=
  funext fun a => Fin.ext (by
    match a with
    | ⟨0, _⟩ => rfl
    | ⟨1, _⟩ => rfl)
theorem ridx_v23_eq (i : S50000x128.Idx) (k : Fin 128) :
    ridx_main_v23 i k = Cert.Sage.colAt (D := 128) i k :=
  funext fun a => Fin.ext (by
    match a with
    | ⟨0, _⟩ => rfl
    | ⟨1, _⟩ => rfl)
theorem lidx_v27_eq (i : S50000x128.Idx) (k : Fin 128) :
    lidx_main_v27 i k = Cert.Sage.rowAt (D := 128) i k :=
  funext fun a => Fin.ext (by
    match a with
    | ⟨0, _⟩ => rfl
    | ⟨1, _⟩ => rfl)
theorem ridx_v27_eq (i : S50000x128.Idx) (k : Fin 128) :
    ridx_main_v27 i k = Cert.Sage.colAt (D := 128) i k :=
  funext fun a => Fin.ext (by
    match a with
    | ⟨0, _⟩ => rfl
    | ⟨1, _⟩ => rfl)
theorem bias_v25_eq (i : S50000x128.Idx) : idx_main_v24 (idx_main_v25 i) = Cert.Sage.biasAt (D := 128) i :=
  funext fun a => Fin.ext (by
    match a with
    | ⟨0, _⟩ => rfl)
theorem lidx_v49_eq (i : S50000x64.Idx) (k : Fin 128) :
    lidx_main_v49 i k = Cert.Sage.rowAt (D := 64) i k :=
  funext fun a => Fin.ext (by
    match a with
    | ⟨0, _⟩ => rfl
    | ⟨1, _⟩ => rfl)
theorem ridx_v49_eq (i : S50000x64.Idx) (k : Fin 128) :
    ridx_main_v49 i k = Cert.Sage.colAt (D := 64) i k :=
  funext fun a => Fin.ext (by
    match a with
    | ⟨0, _⟩ => rfl
    | ⟨1, _⟩ => rfl)
theorem lidx_v53_eq (i : S50000x64.Idx) (k : Fin 128) :
    lidx_main_v53 i k = Cert.Sage.rowAt (D := 64) i k :=
  funext fun a => Fin.ext (by
    match a with
    | ⟨0, _⟩ => rfl
    | ⟨1, _⟩ => rfl)
theorem ridx_v53_eq (i : S50000x64.Idx) (k : Fin 128) :
    ridx_main_v53 i k = Cert.Sage.colAt (D := 64) i k :=
  funext fun a => Fin.ext (by
    match a with
    | ⟨0, _⟩ => rfl
    | ⟨1, _⟩ => rfl)
theorem bias_v51_eq (i : S50000x64.Idx) : idx_main_v50 (idx_main_v51 i) = Cert.Sage.biasAt (D := 64) i :=
  funext fun a => Fin.ext (by
    match a with
    | ⟨0, _⟩ => rfl)
theorem lidx_v74_eq (i : S50000x64.Idx) (k : Fin 128) :
    lidx_main_v74 i k = Cert.Sage.rowAt (D := 64) i k :=
  funext fun a => Fin.ext (by
    match a with
    | ⟨0, _⟩ => rfl
    | ⟨1, _⟩ => rfl)
theorem ridx_v74_eq (i : S50000x64.Idx) (k : Fin 128) :
    ridx_main_v74 i k = Cert.Sage.colAt (D := 64) i k :=
  funext fun a => Fin.ext (by
    match a with
    | ⟨0, _⟩ => rfl
    | ⟨1, _⟩ => rfl)
theorem lidx_v78_eq (i : S50000x64.Idx) (k : Fin 128) :
    lidx_main_v78 i k = Cert.Sage.rowAt (D := 64) i k :=
  funext fun a => Fin.ext (by
    match a with
    | ⟨0, _⟩ => rfl
    | ⟨1, _⟩ => rfl)
theorem ridx_v78_eq (i : S50000x64.Idx) (k : Fin 128) :
    ridx_main_v78 i k = Cert.Sage.colAt (D := 64) i k :=
  funext fun a => Fin.ext (by
    match a with
    | ⟨0, _⟩ => rfl
    | ⟨1, _⟩ => rfl)
theorem bias_v76_eq (i : S50000x64.Idx) : idx_main_v75 (idx_main_v76 i) = Cert.Sage.biasAt (D := 64) i :=
  funext fun a => Fin.ext (by
    match a with
    | ⟨0, _⟩ => rfl)

/-! ### The hidden stage -/

/-- The neighbour mean of the input features, as the reference computes it, is `meanR`. -/
theorem mean_v22 (x0 : (⟨S50000x128, .f32⟩ : BufTy).Contents (Elt Ideal)) (x1 : (⟨S2x800000, .i32⟩ : BufTy).Contents (Elt Ideal)) :
    val_main_v22 (F := Ideal) x0 x1 = meanR x1 x0 := by
  unfold val_main_v22 val_main_v21 val_main_v20 val_main_v19 val_main_v18 val_main_cst_3 val_main_v17 val_main_v16 val_main_v15 val_main_cst_2 val_main_v14 val_main_cst_1 val_main_v13 val_main_v12 val_main_v11 val_main_cst val_main_v10 val_main_v9 val_main_v8 val_main_v7 val_main_v6 val_main_c_0 val_main_v5 val_main_v4 val_main_c val_main_v3 val_main_v2 val_main_v1 val_main_v0
  unfold meanR cntR dstR srcR
  rfl

/-- The reference's hidden features are the specification's hidden layer of (mean of x, x). -/
theorem hidden_stage (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v29 (F := Ideal) x0 x1 x2 x3 x4 = hidR x1 x0 x2 x3 x4 := by
  funext i
  rw [val_main_v29_apply, val_main_v28_apply, val_main_v26_apply, val_main_v27_apply, val_main_v23_apply, val_main_v25_apply,
    val_main_v24_apply, val_main_call0_v0_apply, val_main_call0_cst_apply, mean_v22]
  unfold hidR
  generalize meanR x1 x0 = M
  rw [Ideal.maximumf_def, Ideal.addf_def, Ideal.addf_def, Ideal.ofBits_def, Ideal.ofBits_zero_f32]
  unfold Cert.Sage.hidden Cert.Sage.head
  refine congrArg (max · 0) (congrArg₂ (· + ·) (congrArg₂ (· + ·) (Finset.sum_congr rfl fun k _ => ?_) ?_) (Finset.sum_congr rfl fun k _ => ?_))
  · rw [lidx_v23_eq, ridx_v23_eq]
  · rw [bias_v25_eq]
  · rw [lidx_v27_eq, ridx_v27_eq]

/-! ### The two output stages -/

/-- The neighbour mean of the hidden features, as the reference computes it for this head, is `meanR` of the hidden stage. -/
theorem mean_v48 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v48 (F := Ideal) x0 x1 x2 x3 x4 = meanR x1 (val_main_v29 (F := Ideal) x0 x1 x2 x3 x4) := by
  unfold val_main_v48 val_main_v47 val_main_v46 val_main_v45 val_main_v44 val_main_cst_9 val_main_v43 val_main_v42 val_main_v41 val_main_cst_8 val_main_v40 val_main_cst_7 val_main_v39 val_main_v38 val_main_v37 val_main_cst_6 val_main_v36 val_main_v35 val_main_v34 val_main_v33 val_main_v32 val_main_c_5 val_main_v31 val_main_v30 val_main_c_4 val_main_v3 val_main_v2 val_main_v1 val_main_v0
  unfold meanR cntR dstR srcR
  rfl

/-- The head `v54` of the reference is the specification's head of (mean of hidden, hidden, weights, bias). -/
theorem out0_stage (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128x64, .f32⟩ : BufTy).Contents (Elt Ideal)) (x6 : (⟨S64, .f32⟩ : BufTy).Contents (Elt Ideal)) (x7 : (⟨S128x64, .f32⟩ : BufTy).Contents (Elt Ideal)) :
    val_main_v54 (F := Ideal) x0 x1 x2 x3 x4 x5 x6 x7
      = Cert.Sage.head (D := 64) (meanR x1 (hidR x1 x0 x2 x3 x4)) (hidR x1 x0 x2 x3 x4) x5 x6 x7 := by
  funext i
  rw [val_main_v54_apply, val_main_v52_apply, val_main_v53_apply, val_main_v49_apply, val_main_v51_apply,
    val_main_v50_apply, mean_v48, hidden_stage]
  generalize hidR x1 x0 x2 x3 x4 = H
  generalize meanR x1 H = M
  rw [Ideal.addf_def, Ideal.addf_def]
  unfold Cert.Sage.head
  refine congrArg₂ (· + ·) (congrArg₂ (· + ·) (Finset.sum_congr rfl fun k _ => ?_) ?_) (Finset.sum_congr rfl fun k _ => ?_)
  · rw [lidx_v49_eq, ridx_v49_eq]
  · rw [bias_v51_eq]
  · rw [lidx_v53_eq, ridx_v53_eq]

/-- The neighbour mean of the hidden features, as the reference computes it for this head, is `meanR` of the hidden stage. -/
theorem mean_v73 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v73 (F := Ideal) x0 x1 x2 x3 x4 = meanR x1 (val_main_v29 (F := Ideal) x0 x1 x2 x3 x4) := by
  unfold val_main_v73 val_main_v72 val_main_v71 val_main_v70 val_main_v69 val_main_cst_15 val_main_v68 val_main_v67 val_main_v66 val_main_cst_14 val_main_v65 val_main_cst_13 val_main_v64 val_main_v63 val_main_v62 val_main_cst_12 val_main_v61 val_main_v60 val_main_v59 val_main_v58 val_main_v57 val_main_c_11 val_main_v56 val_main_v55 val_main_c_10 val_main_v3 val_main_v2 val_main_v1 val_main_v0
  unfold meanR cntR dstR srcR
  rfl

/-- The head `v79` of the reference is the specification's head of (mean of hidden, hidden, weights, bias). -/
theorem out1_stage (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal))
    (x8 : (⟨S128x64, .f32⟩ : BufTy).Contents (Elt Ideal)) (x9 : (⟨S64, .f32⟩ : BufTy).Contents (Elt Ideal)) (x10 : (⟨S128x64, .f32⟩ : BufTy).Contents (Elt Ideal)) :
    val_main_v79 (F := Ideal) x0 x1 x2 x3 x4 x8 x9 x10
      = Cert.Sage.head (D := 64) (meanR x1 (hidR x1 x0 x2 x3 x4)) (hidR x1 x0 x2 x3 x4) x8 x9 x10 := by
  funext i
  rw [val_main_v79_apply, val_main_v77_apply, val_main_v78_apply, val_main_v74_apply, val_main_v76_apply,
    val_main_v75_apply, mean_v73, hidden_stage]
  generalize hidR x1 x0 x2 x3 x4 = H
  generalize meanR x1 H = M
  rw [Ideal.addf_def, Ideal.addf_def]
  unfold Cert.Sage.head
  refine congrArg₂ (· + ·) (congrArg₂ (· + ·) (Finset.sum_congr rfl fun k _ => ?_) ?_) (Finset.sum_congr rfl fun k _ => ?_)
  · rw [lidx_v74_eq, ridx_v74_eq]
  · rw [bias_v76_eq]
  · rw [lidx_v78_eq, ridx_v78_eq]

/-! ### The run's results -/

/-- The reference's first result is the head of (mean of hidden, hidden) with the first head's weights and bias. -/
theorem out0_eq (m : (ℓ : Loc nD τ sig) → Buf (Elt Ideal) ℓ) (c : Dev nD) :
    res_out0 (F := Ideal) m c = Cert.Sage.head (D := 64) (meanR (m ((c.tc : Thread nD τ).loc main_arg1)) (hidR (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)))) (hidR (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) (m ((c.tc : Thread nD τ).loc main_arg7)) :=
  (val_main_v54_eq m c).trans (out0_stage _ _ _ _ _ _ _ _)

/-- The reference's second result is the head of (mean of hidden, hidden) with the second head's weights and bias. -/
theorem out1_eq (m : (ℓ : Loc nD τ sig) → Buf (Elt Ideal) ℓ) (c : Dev nD) :
    res_out1 (F := Ideal) m c = Cert.Sage.head (D := 64) (meanR (m ((c.tc : Thread nD τ).loc main_arg1)) (hidR (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)))) (hidR (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4))) (m ((c.tc : Thread nD τ).loc main_arg8)) (m ((c.tc : Thread nD τ).loc main_arg9)) (m ((c.tc : Thread nD τ).loc main_arg10)) :=
  (val_main_v79_eq m c).trans (out1_stage _ _ _ _ _ _ _ _)

end Cert.ReferenceIdeal.RefValue

end
-- ==== Proof.MeanBridge.lean ====
/-
  The two programs' neighbour means are one function.

  Both aggregate the same gathered rows by the same scatter-add and count each node's incoming edges by the same
  scatter-add of ones, clamped below by one.  The kernel program multiplies the aggregated sum by the reciprocal of the
  clamped count, the reference divides by the clamped count: equal at every entry on the extended reals, because the
  clamped count is never zero.
-/
import proofs.«147813_j7421703487977_1_alg».proof.Proof.KernelHost
import proofs.«147813_j7421703487977_1_alg».proof.Proof.RefValue
import proofs.«147813_j7421703487977_1_alg».proof.Proof.SageSpec
import Idealize.ShloMosaic.Lib.Pipeline.Value
import Idealize.ShloMosaic.Lib.ValueIdx

set_option maxRecDepth 16384

noncomputable section

namespace Cert.MeanBridge

open Idealize.ShloMosaic Idealize.ShloMosaic.ValueIdx

/-- A per-node column spread over the feature axis, read at an entry: the column's value at the entry's node. -/
theorem spread_apply {α : Type} (h1 : (⟨1, ![50000]⟩ : Shape).BroadcastsInDim ⟨2, ![50000, 1]⟩ ![0])
    (h2 : (⟨2, ![50000, 1]⟩ : Shape).BroadcastsInDim ⟨2, ![50000, 128]⟩ ![0, 1])
    (Y : (⟨1, ![50000]⟩ : Shape).Idx → α) (i : (⟨2, ![50000, 128]⟩ : Shape).Idx) :
    broadcastInDim ⟨2, ![50000, 128]⟩ ![0, 1] h2 (broadcastInDim ⟨2, ![50000, 1]⟩ ![0] h1 Y) i
      = Y (fun a => match a with | ⟨0, _⟩ => ⟨(i 0).val, (i 0).isLt⟩) := by
  refine (broadcastInDim_apply _ h2 _ i (fun a => match a with
      | ⟨0, _⟩ => ⟨(i 0).val, (i 0).isLt⟩
      | ⟨1, _⟩ => ⟨0, Nat.one_pos⟩) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])).trans ?_
  exact broadcastInDim_apply _ h1 Y _ (fun a => match a with | ⟨0, _⟩ => ⟨(i 0).val, (i 0).isLt⟩) (fun a => match a with
    | ⟨0, _⟩ => by show (i 0).val = if (50000 : Nat) = 1 then 0 else (i 0).val; rw [if_neg (by decide)])

/-- A scalar spread over the nodes, read at a node: the scalar. -/
theorem splat_apply {α : Type} (h : (⟨0, ![]⟩ : Shape).BroadcastsInDim ⟨1, ![50000]⟩ ![])
    (y : (⟨0, ![]⟩ : Shape).Idx → α) (j : (⟨1, ![50000]⟩ : Shape).Idx) :
    broadcastInDim ⟨1, ![50000]⟩ ![] h y j = y ix0 :=
  broadcastInDim_apply _ h y j ix0 (fun a => a.elim0)

/-- The host's quotient of two arrays, read at an entry. -/
theorem hostDivf_apply {s : Shape} {φ : FTy} (a b : FVec Ideal s φ) (j : s.Idx) : Host.divf a b j = Ideal.div (a j) (b j) := rfl

open Cert.KernelIdeal.HostValue Cert.ReferenceIdeal.RefValue

/-- The two programs' index columns and counts are the same terms. -/
theorem dst_eq (ei : Edges) : dstIdx ei = dstR ei := rfl
theorem src_eq (ei : Edges) : srcIdx ei = srcR ei := rfl
theorem count_eq (ei : Edges) : clampedCount ei = cntR ei := rfl

/-- The node of an entry of a node-feature array. -/
abbrev nodeOf (i : (⟨2, ![50000, 128]⟩ : Shape).Idx) : (⟨1, ![50000]⟩ : Shape).Idx :=
  fun a => match a with | ⟨0, _⟩ => ⟨(i 0).val, (i 0).isLt⟩

/-- The spread one is one at every node. -/
theorem ones_apply (j : (⟨1, ![50000]⟩ : Shape).Idx) : ones j = 1 := by
  unfold ones
  rw [splat_apply, constant_apply, Cert.Sage.ofBits_one_f32]

/-- The clamped count at a node is the larger of its raw count and one. -/
theorem clampedCount_apply (ei : Edges) (j : (⟨1, ![50000]⟩ : Shape).Idx) : clampedCount ei j = max (rawCount ei j) 1 := by
  unfold clampedCount
  rw [maximumf_apply, ones_apply]

/-- The kernel program's mean at an entry: the aggregated sum times the reciprocal of the node's clamped count. -/
theorem mean_apply (ei : Edges) (X : Feat) (i : (⟨2, ![50000, 128]⟩ : Shape).Idx) :
    mean ei X i = aggregate ei X i * Ideal.div 1 (max (rawCount ei (nodeOf i)) 1) := by
  unfold mean recip
  rw [mulf_apply, spread_apply, hostDivf_apply, ones_apply, clampedCount_apply]

/-- The reference's mean at an entry: the aggregated sum over the node's clamped count. -/
theorem meanR_apply (ei : Edges) (X : Feat) (i : (⟨2, ![50000, 128]⟩ : Shape).Idx) :
    meanR ei X i = Ideal.div (aggregate ei X i) (max (rawCount ei (nodeOf i)) 1) := by
  unfold meanR
  rw [hostDivf_apply, spread_apply, ← count_eq, clampedCount_apply, ← dst_eq, ← src_eq]
  rfl

/-- The neighbour mean by the reciprocal is the neighbour mean by the quotient. -/
theorem mean_eq (ei : Edges) (X : Feat) : mean ei X = meanR ei X := by
  funext i
  rw [mean_apply, meanR_apply]
  exact Cert.Sage.mul_recip_eq_div _ _

end Cert.MeanBridge

end
-- ==== Proof.Claims.lean ====
/-
  The five claims.

  The three frames: the two kernel programs' are the generated frame certificates; the reference's is its generated run
  with the results dropped.  The idealization rewrote nothing, so `preserves` is trivial.  The equivalence: the kernel
  program ends with its two results at the heads of (neighbour mean of the hidden features, hidden features), the hidden
  features the clamped head of (neighbour mean of the node features, node features); the reference ends at the same heads
  with its own neighbour mean; and the two means are one function (the product with the reciprocal of a count clamped
  below by one is the quotient by it).  No finiteness of the inputs is used.
-/
import proofs.«147813_j7421703487977_1_alg».proof.Defs
import proofs.«147813_j7421703487977_1_alg».proof.Proof.Gen.Kernel.Frame
import proofs.«147813_j7421703487977_1_alg».proof.Proof.Gen.KernelIdeal.Frame
import proofs.«147813_j7421703487977_1_alg».proof.Proof.Gen.ReferenceIdeal.Run
import proofs.«147813_j7421703487977_1_alg».proof.Proof.Gen.Pre_finite_inputs
import proofs.«147813_j7421703487977_1_alg».proof.Proof.KernelValue
import proofs.«147813_j7421703487977_1_alg».proof.Proof.RefValue
import proofs.«147813_j7421703487977_1_alg».proof.Proof.MeanBridge

set_option maxRecDepth 16384

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- The reference's first result, over arguments that agree with the kernel program's, is the kernel program's. -/
theorem result0_eq (m : (ℓ : Loc Cert.KernelIdeal.nD Cert.KernelIdeal.τ Cert.KernelIdeal.sig) → Buf (Elt Ideal) ℓ)
    (c : Dev Cert.KernelIdeal.nD) :
    Cert.Sage.head (D := 64)
        (Cert.ReferenceIdeal.RefValue.meanR (m ((c.tc : Thread Cert.KernelIdeal.nD Cert.KernelIdeal.τ).loc Cert.KernelIdeal.main_arg1))
          (Cert.ReferenceIdeal.RefValue.hidR (m ((c.tc : Thread Cert.KernelIdeal.nD Cert.KernelIdeal.τ).loc Cert.KernelIdeal.main_arg1))
            (m ((c.tc : Thread Cert.KernelIdeal.nD Cert.KernelIdeal.τ).loc Cert.KernelIdeal.main_arg0))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))))
        (Cert.ReferenceIdeal.RefValue.hidR (m ((c.tc : Thread Cert.KernelIdeal.nD Cert.KernelIdeal.τ).loc Cert.KernelIdeal.main_arg1))
            (m ((c.tc : Thread Cert.KernelIdeal.nD Cert.KernelIdeal.τ).loc Cert.KernelIdeal.main_arg0))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4)))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = Cert.KernelIdeal.KValue.result0Of m c := by
  unfold Cert.KernelIdeal.KValue.result0Of Cert.KernelIdeal.KValue.hiddenOf Cert.ReferenceIdeal.RefValue.hidR
  simp only [Cert.MeanBridge.mean_eq]

/-- The same for the second result. -/
theorem result1_eq (m : (ℓ : Loc Cert.KernelIdeal.nD Cert.KernelIdeal.τ Cert.KernelIdeal.sig) → Buf (Elt Ideal) ℓ)
    (c : Dev Cert.KernelIdeal.nD) :
    Cert.Sage.head (D := 64)
        (Cert.ReferenceIdeal.RefValue.meanR (m ((c.tc : Thread Cert.KernelIdeal.nD Cert.KernelIdeal.τ).loc Cert.KernelIdeal.main_arg1))
          (Cert.ReferenceIdeal.RefValue.hidR (m ((c.tc : Thread Cert.KernelIdeal.nD Cert.KernelIdeal.τ).loc Cert.KernelIdeal.main_arg1))
            (m ((c.tc : Thread Cert.KernelIdeal.nD Cert.KernelIdeal.τ).loc Cert.KernelIdeal.main_arg0))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))))
        (Cert.ReferenceIdeal.RefValue.hidR (m ((c.tc : Thread Cert.KernelIdeal.nD Cert.KernelIdeal.τ).loc Cert.KernelIdeal.main_arg1))
            (m ((c.tc : Thread Cert.KernelIdeal.nD Cert.KernelIdeal.τ).loc Cert.KernelIdeal.main_arg0))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4)))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
      = Cert.KernelIdeal.KValue.result1Of m c := by
  unfold Cert.KernelIdeal.KValue.result1Of Cert.KernelIdeal.KValue.hiddenOf Cert.ReferenceIdeal.RefValue.hidR
  simp only [Cert.MeanBridge.mean_eq]

theorem algebraic : Cert.algebraic_KernelIdeal_ReferenceIdeal := by
  intro m ρ m' ρ' _ hagree
  refine ⟨fun c => Cert.KernelIdeal.KValue.result0Of m c, fun c => Cert.KernelIdeal.KValue.result1Of m c,
    Cert.KernelIdeal.KValue.run m ρ, ?_⟩
  refine (θ_run Cert.ReferenceIdeal.defs _ _).mono (fun r h c => ?_) (Cert.ReferenceIdeal.Value.run (F := Ideal) m' ρ')
  obtain ⟨h0, h1, hargs⟩ := h c
  obtain ⟨a0, a1, a2, a3, a4, a5, a6, a7, a8, a9, a10⟩ := hagree c
  refine ⟨h0.trans ?_, h1.trans ?_, hargs⟩
  · refine (Cert.ReferenceIdeal.RefValue.out0_eq m' c).trans ?_
    rw [a0, a1, a2, a3, a4, a5, a6, a7]
    exact result0_eq m c
  · refine (Cert.ReferenceIdeal.RefValue.out1_eq m' c).trans ?_
    rw [a0, a1, a2, a3, a4, a8, a9, a10]
    exact result1_eq m c

end Cert.Proof.Claims

end
-- ==== Proof.lean ====
/-
  The certificate of a two-layer GraphSAGE encoder with mean aggregation, its per-node linear passes fused into two
  Pallas kernels, against the jnp reference.

  The kernel program aggregates on the host (gather by source, scatter-add by destination, a neighbour count clamped
  below by one) and multiplies the aggregated sum by the count's reciprocal; the first kernel computes the hidden layer
  `relu(mean · W1_l + x · W1_r + b1)` row block by row block, the second the two output heads of the hidden features
  and their neighbour mean.  The reference divides the aggregated sum by the clamped count and writes each head as
  `(mean · Wl + b) + x · Wr`.  Over the extended reals the two means agree at every entry (the clamped count is never
  zero, so both are the product with its inverse), a matrix product into a zero accumulator is the plain sum of
  products, a change of float format is the identity, and the heads differ by the order of one sum.
  The modules: the specification (SageSpec), what each pallas_call leaves in its output arrays (Region0Value,
  Region1Value), the kernel program's host stretches and results (KernelHost, KernelValue, and the launch called again
  with the results named: KernelIdealRun), the reference's results (RefValue), the means' agreement (MeanBridge), and
  the five claims (Claims).
-/
import proofs.«147813_j7421703487977_1_alg».proof.Defs
import proofs.«147813_j7421703487977_1_alg».proof.Proof.Gen.Kernel
import proofs.«147813_j7421703487977_1_alg».proof.Proof.Gen.Kernel.Skeleton
import proofs.«147813_j7421703487977_1_alg».proof.Proof.Gen.Kernel.Launch
import proofs.«147813_j7421703487977_1_alg».proof.Proof.Gen.Kernel.Points
import proofs.«147813_j7421703487977_1_alg».proof.Proof.Gen.Kernel.Frame
import proofs.«147813_j7421703487977_1_alg».proof.Proof.Gen.KernelIdeal
import proofs.«147813_j7421703487977_1_alg».proof.Proof.Gen.KernelIdeal.Skeleton
import proofs.«147813_j7421703487977_1_alg».proof.Proof.Gen.KernelIdeal.Launch
import proofs.«147813_j7421703487977_1_alg».proof.Proof.Gen.KernelIdeal.Points
import proofs.«147813_j7421703487977_1_alg».proof.Proof.Gen.KernelIdeal.Frame
import proofs.«147813_j7421703487977_1_alg».proof.Proof.Gen.ReferenceIdeal
import proofs.«147813_j7421703487977_1_alg».proof.Proof.Gen.Pre_finite_inputs
import proofs.«147813_j7421703487977_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_kernel, Cert.Proof.Claims.frame_kernelIdeal, Cert.Proof.Claims.frame_referenceIdeal, trivial,
  Cert.Proof.Claims.algebraic⟩

end Cert.Proof

end
